-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x16x64 : Shape := ⟨3, ![16384, 16, 64]⟩
abbrev S16384x16x1 : Shape := ⟨3, ![16384, 16, 1]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x16x1 : S_.BroadcastsInDim S16384x16x1 (![] : Fin 0 → Fin S16384x16x1.rank)
  reducesTo_S16384x16x1_S_d0_1_2 : S16384x16x1.ReducesTo [0, 1, 2] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S2x2048x4096 .f32) (main_arg1 : IVec S16384x16x64 32) (main_arg2 : FVec F S16384x16x1 .f32) (main_arg3 : FVec F S16384x16x1 .f32) (main_arg4 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x16x1 .f32 := Host.absf main_arg2
  let main_cst_0 : FVec F S_ .f32 := constant S_ .f32 0x7F800000#32
  let main_v5 : FVec F S16384x16x1 .f32 := broadcastInDim S16384x16x1 ![] bcast_S_S16384x16x1 main_cst_0
  let main_v6 : IVec S16384x16x1 1 := cmpf .olt main_v4 main_v5
  let main_c_1 : IVec S_ 1 := constantI S_ 1 1#1
  let main_v7 : IVec S_ 1 := (fun x v => Host.reduce IntOp.andi x v reducesTo_S16384x16x1_S_d0_1_2 h_S_) main_v6 main_c_1
  let main_v8 : IVec S_ 1 := andi main_v3 main_v7
  let main_v9 : FVec F S16384x16x1 .f32 := Host.absf main_arg3
  let main_cst_2 : FVec F S_ .f32 := constant S_ .f32 0x7F800000#32
  let main_v10 : FVec F S16384x16x1 .f32 := broadcastInDim S16384x16x1 ![] bcast_S_S16384x16x1 main_cst_2
  let main_v11 : IVec S16384x16x1 1 := cmpf .olt main_v9 main_v10
  let main_c_3 : IVec S_ 1 := constantI S_ 1 1#1
  let main_v12 : IVec S_ 1 := (fun x v => Host.reduce IntOp.andi x v reducesTo_S16384x16x1_S_d0_1_2 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S2x2048x4096 : Shape := ⟨3, ![2, 2048, 4096]⟩
abbrev S16384x16x64 : Shape := ⟨3, ![16384, 16, 64]⟩
abbrev S16384x16x1 : Shape := ⟨3, ![16384, 16, 1]⟩
abbrev S16384 : Shape := ⟨1, ![16384]⟩
abbrev S16384x16 : Shape := ⟨2, ![16384, 16]⟩
abbrev S16384x1024 : Shape := ⟨2, ![16384, 1024]⟩
abbrev S4096x4096 : Shape := ⟨2, ![4096, 4096]⟩
abbrev S4096x16x256 : Shape := ⟨3, ![4096, 16, 256]⟩
abbrev S_ : Shape := ⟨0, ![]⟩
abbrev S4096x16 : Shape := ⟨2, ![4096, 16]⟩
abbrev S4096x16x64x4 : Shape := ⟨4, ![4096, 16, 64, 4]⟩
abbrev S4096x4x16x64 : Shape := ⟨4, ![4096, 4, 16, 64]⟩
abbrev S4096x16384 : Shape := ⟨2, ![4096, 16384]⟩
abbrev S1024x4096 : Shape := ⟨2, ![1024, 4096]⟩
abbrev S1024x1024 : Shape := ⟨2, ![1024, 1024]⟩
abbrev S1024x16 : Shape := ⟨2, ![1024, 16]⟩
abbrev S1024 : Shape := ⟨1, ![1024]⟩
abbrev S1024x16x1 : Shape := ⟨3, ![1024, 16, 1]⟩
abbrev S1024x16x64 : Shape := ⟨3, ![1024, 16, 64]⟩
abbrev S1x1024 : Shape := ⟨2, ![1, 1024]⟩
abbrev S2x2048x16384 : Shape := ⟨3, ![2, 2048, 16384]⟩

abbrev nBuf : Space → Nat
  | .hbm => 18
  | .vmem => 14
  | .smem => 0
  | _ => 0

abbrev bufTy : (tb : Table) → Fin (tcTables nBuf tb) → BufTy
  | .hbm, ⟨0, _⟩ => ⟨S2x2048x4096, .f32⟩
  | .hbm, ⟨1, _⟩ => ⟨S16384x16x64, .i32⟩
  | .hbm, ⟨2, _⟩ => ⟨S16384x16x1, .f32⟩
  | .hbm, ⟨3, _⟩ => ⟨S16384x16x1, .f32⟩
  | .hbm, ⟨4, _⟩ => ⟨S16384, .f32⟩
  | .hbm, ⟨5, _⟩ => ⟨S16384x16, .f32⟩
  | .hbm, ⟨6, _⟩ => ⟨S16384x16, .f32⟩
  | .hbm, ⟨7, _⟩ => ⟨S16384x1024, .i32⟩
  | .hbm, ⟨8, _⟩ => ⟨S4096x4096, .f32⟩
  | .hbm, ⟨9, _⟩ => ⟨S4096x16x256, .f32⟩
  | .hbm, ⟨10, _⟩ => ⟨S_, .f32⟩
  | .hbm, ⟨11, _⟩ => ⟨S4096x16, .f32⟩
  | .hbm, ⟨12, _⟩ => ⟨S4096x4096, .bf16⟩
  | .hbm, ⟨13, _⟩ => ⟨S4096x16x64x4, .bf16⟩
  | .hbm, ⟨14, _⟩ => ⟨S4096x4x16x64, .bf16⟩
  | .hbm, ⟨15, _⟩ => ⟨S4096x4096, .bf16⟩
  | .hbm, ⟨16, _⟩ => ⟨S4096x16384, .f32⟩
  | .hbm, ⟨17, _⟩ => ⟨S2x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .i32⟩
  | .local _ .vmem, ⟨3, _⟩ => ⟨S1024x1024, .i32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024, .f32⟩
  | .local _ .vmem, ⟨11, _⟩ => ⟨S1024, .f32⟩
  | .local _ .vmem, ⟨12, _⟩ => ⟨S1024x1024, .f32⟩
  | .local _ .vmem, ⟨13, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16384x16x1_S16384x16 : S16384x16x1.ShapeCasts S16384x16
  shapeCasts_S16384x16x64_S16384x1024 : S16384x16x64.ShapeCasts S16384x1024
  shapeCasts_S2x2048x4096_S4096x4096 : S2x2048x4096.ShapeCasts S4096x4096
  shapeCasts_S4096x4096_S4096x16x256 : S4096x4096.ShapeCasts S4096x16x256
  reducesTo_S4096x16x256_S4096x16_d2 : S4096x16x256.ReducesTo [2] S4096x16
  h_S_ : 0 < S_.numel
  bitsLt_bf16_f32 : FTy.bits .bf16 < FTy.bits .f32
  shapeCasts_S4096x4096_S4096x16x64x4 : S4096x4096.ShapeCasts S4096x16x64x4
  transposes_S4096x16x64x4_S4096x4x16x64_0_3_1_2 : S4096x16x64x4.Transposes [0, 3, 1, 2] S4096x4x16x64
  shapeCasts_S4096x4x16x64_S4096x4096 : S4096x4x16x64.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024_S1024_0 : ∀ a, (![0] : Fin 1 → Nat) a + S1024.size a ≤ S1024.size a
  h_S1024 : 0 < S1024.numel
  shapeCasts_S1024x16_S1024x16x1 : S1024x16.ShapeCasts S1024x16x1
  shapeCasts_S1024x16x1_S1024x16x1 : S1024x16x1.ShapeCasts S1024x16x1
  broadcasts_S1024x16x1_S1024x16x64 : S1024x16x1.Broadcasts S1024x16x64
  shapeCasts_S1024x16x64_S1024x1024 : S1024x16x64.ShapeCasts S1024x1024
  inb_S1024x4096_S1024x1024_0_0 : ∀ a, (![0, 0] : Fin 2 → Nat) a + S1024x1024.size a ≤ S1024x4096.size a
  inb_S1024x4096_S1024x1024_0_1024 : ∀ a, (![0, 1024] : Fin 2 → Nat) a + S1024x1024.size a ≤ S1024x4096.size a
  inb_S1024x4096_S1024x1024_0_2048 : ∀ a, (![0, 2048] : Fin 2 → Nat) a + S1024x1024.size a ≤ S1024x4096.size a
  inb_S1024x4096_S1024x1024_0_3072 : ∀ a, (![0, 3072] : Fin 2 → Nat) a + S1024x1024.size a ≤ S1024x4096.size a
  shapeCasts_S1024_S1x1024 : S1024.ShapeCasts S1x1024
  broadcasts_S1x1024_S1024x1024 : S1x1024.Broadcasts S1024x1024
  shapeCasts_S4096x16384_S2x2048x16384 : S4096x16384.ShapeCasts S2x2048x16384
  dot_S1024x1024_S1024x1024_S1024x1024_1_1_0_0_n_n_wf : DotDims.WF S1024x1024 S1024x1024 S1024x1024 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .i32 = 32 ∨ (Rect.block (s := S16384x1024) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .f32 = 32 ∨ (Rect.block (s := S16384x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S16384x16.size a
  hwx0_3 : ∀ i : grid0.Coords, EltTy.bits .f32 = 32 ∨ (Rect.block (s := S16384x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S16384.size a
  hwx0_5 : ∀ i : grid0.Coords, EltTy.bits .f32 = 32 ∨ (Rect.block (s := S16384) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x16384.size a
  hwx0_6 : ∀ i : grid0.Coords, EltTy.bits .f32 = 32 ∨ (Rect.block (s := S4096x16384) S1024x1024.size (cc0_transform_6 i) (hinb0_6 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v9) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S16384x16x64 : Shape := ⟨3, ![16384, 16, 64]⟩
abbrev S16384x16x1 : Shape := ⟨3, ![16384, 16, 1]⟩
abbrev S16384 : Shape := ⟨1, ![16384]⟩
abbrev S4 : Shape := ⟨1, ![4]⟩
abbrev S_ : Shape := ⟨0, ![]⟩
abbrev S16384x16x64x1 : Shape := ⟨4, ![16384, 16, 64, 1]⟩
abbrev S1x1x1x4 : Shape := ⟨4, ![1, 1, 1, 4]⟩
abbrev S16384x16x64x4 : Shape := ⟨4, ![16384, 16, 64, 4]⟩
abbrev S16384x16x256 : Shape := ⟨3, ![16384, 16, 256]⟩
abbrev S16384x4096 : Shape := ⟨2, ![16384, 4096]⟩
abbrev S2x2048x16384 : Shape := ⟨3, ![2, 2048, 16384]⟩
abbrev S1x1x16384 : Shape := ⟨3, ![1, 1, 16384]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x16x64, .i32⟩
  | .hbm, ⟨2, _⟩ => ⟨S16384x16x1, .f32⟩
  | .hbm, ⟨3, _⟩ => ⟨S16384x16x1, .f32⟩
  | .hbm, ⟨4, _⟩ => ⟨S16384, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S16384x16x64x1, .i32⟩
  | .hbm, ⟨10, _⟩ => ⟨S1x1x1x4, .i32⟩
  | .hbm, ⟨11, _⟩ => ⟨S16384x16x64x4, .i32⟩
  | .hbm, ⟨12, _⟩ => ⟨S16384x16x64x4, .i32⟩
  | .hbm, ⟨13, _⟩ => ⟨S16384x16x64x4, .i32⟩
  | .hbm, ⟨14, _⟩ => ⟨S_, .i32⟩
  | .hbm, ⟨15, _⟩ => ⟨S16384x16x64x4, .i32⟩
  | .hbm, ⟨16, _⟩ => ⟨S16384x16x64x4, .i32⟩
  | .hbm, ⟨17, _⟩ => ⟨S16384x16x64x4, .f32⟩
  | .hbm, ⟨18, _⟩ => ⟨S16384x16x256, .f32⟩
  | .hbm, ⟨19, _⟩ => ⟨S16384x16x256, .f32⟩
  | .hbm, ⟨20, _⟩ => ⟨S16384x16x256, .f32⟩
  | .hbm, ⟨21, _⟩ => ⟨S16384x16x256, .f32⟩
  | .hbm, ⟨22, _⟩ => ⟨S16384x16x256, .f32⟩
  | .hbm, ⟨23, _⟩ => ⟨S16384x4096, .f32⟩
  | .hbm, ⟨24, _⟩ => ⟨S2x2048x16384, .f32⟩
  | .hbm, ⟨25, _⟩ => ⟨S1x1x16384, .f32⟩
  | .hbm, ⟨26, _⟩ => ⟨S2x2048x16384, .f32⟩
  | .hbm, ⟨27, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S16384x16x64_S16384x16x64x1_0_1_2 : S16384x16x64.BroadcastsInDim S16384x16x64x1 (![0, 1, 2] : Fin 3 → Fin S16384x16x64x1.rank)
  bcast_S4_S1x1x1x4_3 : S4.BroadcastsInDim S1x1x1x4 (![3] : Fin 1 → Fin S1x1x1x4.rank)
  bcast_S16384x16x64x1_S16384x16x64x4_0_1_2_3 : S16384x16x64x1.BroadcastsInDim S16384x16x64x4 (![0, 1, 2, 3] : Fin 4 → Fin S16384x16x64x4.rank)
  bcast_S1x1x1x4_S16384x16x64x4_0_1_2_3 : S1x1x1x4.BroadcastsInDim S16384x16x64x4 (![0, 1, 2, 3] : Fin 4 → Fin S16384x16x64x4.rank)
  bcast_S_S16384x16x64x4 : S_.BroadcastsInDim S16384x16x64x4 (![] : Fin 0 → Fin S16384x16x64x4.rank)
  shapeCasts_S16384x16x64x4_S16384x16x256 : S16384x16x64x4.ShapeCasts S16384x16x256
  bcast_S16384x16x1_S16384x16x256_0_1_2 : S16384x16x1.BroadcastsInDim S16384x16x256 (![0, 1, 2] : Fin 3 → Fin S16384x16x256.rank)
  shapeCasts_S16384x16x256_S16384x4096 : S16384x16x256.ShapeCasts S16384x4096
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.Spec.lean ====
/-
  The specification of the group-quantised linear layer, over plain functions of the literal shapes.

  A packed word holds four 4-bit fields; field `k` of word `w` is `(w >>ₛ 4k) &&& 15`, read as a signed integer and
  then as a real. Input column `i` of the 4096 belongs to group `i / 256`, packed word `(i % 256) / 4` of that group
  and field `i % 4` of that word. The dequantised weight at output row `o` and column `i` is
  `field · scale[o, group] + offset[o, group]`, and the layer is `y[b, s, o] = Σ_i x[b, s, i] · weight[o, i] + bias[o]`.

  The index maps between the two ways of walking the 4096 columns (field-major, in four chunks of 1024 ordered by
  group then word; and group-major, in 16 runs of 256) are named here once, with the arithmetic relations between them.
-/
import Idealize.ShloMosaic.PureOps.Ideal
import Idealize.ShloMosaic.Lib.ValueIdx

noncomputable section

namespace Cert.GroupQuant

open Idealize.ShloMosaic Idealize.ShloMosaic.ValueIdx

abbrev ShX : Shape := ⟨3, ![2, 2048, 4096]⟩
abbrev ShWp : Shape := ⟨3, ![16384, 16, 64]⟩
abbrev ShWs : Shape := ⟨3, ![16384, 16, 1]⟩
abbrev ShB : Shape := ⟨1, ![16384]⟩
abbrev ShOut : Shape := ⟨3, ![2, 2048, 16384]⟩

/-- The shift that brings field `k` of a packed word to the low four bits. -/
def shamt : Fin 4 → BitVec 32
  | 0 => 0#32
  | 1 => 4#32
  | 2 => 8#32
  | 3 => 12#32

/-- Field `k` of the packed word `w`, as an extended real: the arithmetic shift, the mask, the signed reading. -/
def nibble (w : BitVec 32) (k : Fin 4) : EReal :=
  (((IntOp.andi (IntOp.shrsi .vector w (shamt k)) 15#32).toInt : ℝ) : EReal)

/-- A field is a real number. -/
theorem nibble_real (w : BitVec 32) (k : Fin 4) : ∃ r : ℝ, nibble w k = (r : EReal) := ⟨_, rfl⟩

/-- The group of input column `i`. -/
def grpOf (i : Fin 4096) : Fin 16 := ⟨i.val / 256, by omega⟩
/-- The packed word, within its group, of input column `i`. -/
def colOf (i : Fin 4096) : Fin 64 := ⟨i.val % 256 / 4, by omega⟩
/-- The field, within its packed word, of input column `i`. -/
def fldOf (i : Fin 4096) : Fin 4 := ⟨i.val % 4, by omega⟩

/-- Row `M` of the flattened 4096 × 4096 input is row `(M / 2048, M % 2048)` of the 2 × 2048 × 4096 one. -/
def rowB (M : Fin 4096) : Fin 2 := ⟨M.val / 2048, by omega⟩
def rowS (M : Fin 4096) : Fin 2048 := ⟨M.val % 2048, by omega⟩
/-- Back: the flattened row of `(b, s)`. -/
def rowOf (b : Fin 2) (s : Fin 2048) : Fin 4096 := ⟨b.val * 2048 + s.val, by omega⟩

/-- Position `j = group · 64 + word` of the 1024 packed words of a row: its group and its word. -/
def grpJ (j : Fin 1024) : Fin 16 := ⟨j.val / 64, by omega⟩
def colJ (j : Fin 1024) : Fin 64 := ⟨j.val % 64, by omega⟩
/-- The input column whose weight is field `k` of packed word `j`. -/
def permIn (k : Fin 4) (j : Fin 1024) : Fin 4096 := ⟨j.val / 64 * 256 + j.val % 64 * 4 + k.val, by omega⟩
/-- Column `j` of the `k`-th chunk of 1024 columns. -/
def chunkCol (k : Fin 4) (j : Fin 1024) : Fin 4096 := ⟨k.val * 1024 + j.val, by omega⟩
/-- Column `r` of the `g`-th run of 256 columns. -/
def grpCol (g : Fin 16) (r : Fin 256) : Fin 4096 := ⟨g.val * 256 + r.val, by omega⟩

theorem grpOf_permIn (k : Fin 4) (j : Fin 1024) : grpOf (permIn k j) = grpJ j :=
  Fin.ext (by show (j.val / 64 * 256 + j.val % 64 * 4 + k.val) / 256 = j.val / 64; omega)
theorem colOf_permIn (k : Fin 4) (j : Fin 1024) : colOf (permIn k j) = colJ j :=
  Fin.ext (by show (j.val / 64 * 256 + j.val % 64 * 4 + k.val) % 256 / 4 = j.val % 64; omega)
theorem fldOf_permIn (k : Fin 4) (j : Fin 1024) : fldOf (permIn k j) = k :=
  Fin.ext (by show (j.val / 64 * 256 + j.val % 64 * 4 + k.val) % 4 = k.val; omega)
theorem grpOf_grpCol (g : Fin 16) (r : Fin 256) : grpOf (grpCol g r) = g :=
  Fin.ext (by show (g.val * 256 + r.val) / 256 = g.val; omega)

/-- The dequantised weight at output row `o`, input column `i`. -/
def deq (wp : ShWp.Idx → BitVec 32) (ws wb : ShWs.Idx → EReal) (o : Fin 16384) (i : Fin 4096) : EReal :=
  nibble (wp (ix3 (n0 := 16384) (n1 := 16) (n2 := 64) o (grpOf i) (colOf i))) (fldOf i)
      * ws (ix3 (n0 := 16384) (n1 := 16) (n2 := 1) o (grpOf i) 0)
    + wb (ix3 (n0 := 16384) (n1 := 16) (n2 := 1) o (grpOf i) 0)

/-- The layer: `y[b, s, o] = Σ_i x[b, s, i] · weight[o, i] + bias[o]`. -/
def G (x : ShX.Idx → EReal) (wp : ShWp.Idx → BitVec 32) (ws wb : ShWs.Idx → EReal) (bias : ShB.Idx → EReal) :
    ShOut.Idx → EReal := fun i =>
  (∑ k : Fin 4096, x (ix3 (n0 := 2) (n1 := 2048) (n2 := 4096) (i 0) (i 1) k) * deq wp ws wb (i 2) k)
    + bias (ix1 (n := 16384) (i 2))

end Cert.GroupQuant

end
-- ==== Proof.BlockOps.lean ====
/-
  The body's arithmetic read at an index of the output block, generic in what the input blocks hold.

  The body multiplies each of the four 1024-column chunks of its row block by the matching field of every packed word
  scaled by its group's scale (a contraction over the 1024 packed-word positions), adds the four, adds the per-group row
  sums contracted against the group offsets (a contraction over the 16 groups), and adds the bias row.
-/
import proofs.«424870_j11733850653104_3_alg».proof.Proof.Spec
import proofs.«424870_j11733850653104_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.GroupQuant

open Idealize.ShloMosaic Idealize.ShloMosaic.ValueIdx
open Cert.KernelIdeal Cert.KernelIdeal.Gen

/-! ## The two contractions, read at an output index -/

theorem lhs_big_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_big_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_big_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_big_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A row block times the transpose of a weight block, into a zero accumulator: entry `(p, q)` is the sum over the
    1024 shared positions of `l[p, k] · r[q, k]`. -/
theorem matmul_big_apply (l r : FVec Ideal S1024x1024 .bf16) (p q : Fin 1024) :
    FloatOps.matmul dot_S1024x1024_S1024x1024_S1024x1024_1_1_0_0_n_n none l r (constant (F := Ideal) S1024x1024 .f32 0x00000000#32)
        (ix2 (n0 := 1024) (n1 := 1024) p q)
      = ∑ k : Fin 1024, l (ix2 (n0 := 1024) (n1 := 1024) p k) * r (ix2 (n0 := 1024) (n1 := 1024) q k) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 (n0 := 1024) (n1 := 1024) p q) ((ValueIdx.contrEquiv1 dot_S1024x1024_S1024x1024_S1024x1024_1_1_0_0_n_n 1024 rfl rfl).symm k) = ix2 (n0 := 1024) (n1 := 1024) p k := funext fun a => Fin.ext (by
    match a with
    | ⟨0, _⟩ => exact lhs_big_0 _ _
    | ⟨1, _⟩ => exact (lhs_big_1 _ _).trans hk)
  have er : dot_S1024x1024_S1024x1024_S1024x1024_1_1_0_0_n_n.rhsIdx (ix2 (n0 := 1024) (n1 := 1024) p q) ((ValueIdx.contrEquiv1 dot_S1024x1024_S1024x1024_S1024x1024_1_1_0_0_n_n 1024 rfl rfl).symm k) = ix2 (n0 := 1024) (n1 := 1024) q k := funext fun a => Fin.ext (by
    match a with
    | ⟨0, _⟩ => exact rhs_big_0 _ _
    | ⟨1, _⟩ => exact (rhs_big_1 _ _).trans hk)
  rw [el, er]

theorem lhs_small_0 (i : S1024x1024.Idx) (q : dot_S1024x16_S1024x16_S1024x1024_1_1_0_0_n_n.contr.Idx) :
    (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhs_small_1 (i : S1024x1024.Idx) (q : dot_S1024x16_S1024x16_S1024x1024_1_1_0_0_n_n.contr.Idx) :
    (dot_S1024x16_S1024x16_S1024x1024_1_1_0_0_n_n.lhsIdx i q 1).val = (q ⟨0, by decide⟩).val :=
  dot_S1024x16_S1024x16_S1024x1024_1_1_0_0_n_n.lhsIdx_val_of_single rfl i q
theorem rhs_small_0 (i : S1024x1024.Idx) (q : dot_S1024x16_S1024x16_S1024x1024_1_1_0_0_n_n.contr.Idx) :
    (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhs_small_1 (i : S1024x1024.Idx) (q : dot_S1024x16_S1024x16_S1024x1024_1_1_0_0_n_n.contr.Idx) :
    (dot_S1024x16_S1024x16_S1024x1024_1_1_0_0_n_n.rhsIdx i q 1).val = (q ⟨0, by decide⟩).val :=
  dot_S1024x16_S1024x16_S1024x1024_1_1_0_0_n_n.rhsIdx_val_of_single rfl i q

/-- The same over the 16 groups: entry `(p, q)` is the sum over the groups of `l[p, g] · r[q, g]`. -/
theorem matmul_small_apply (l r : FVec Ideal S1024x16 .bf16) (p q : Fin 1024) :
    FloatOps.matmul dot_S1024x16_S1024x16_S1024x1024_1_1_0_0_n_n none l r (constant (F := Ideal) S1024x1024 .f32 0x00000000#32)
        (ix2 (n0 := 1024) (n1 := 1024) p q)
      = ∑ g : Fin 16, l (ix2 (n0 := 1024) (n1 := 16) p g) * r (ix2 (n0 := 1024) (n1 := 16) q g) := by
  rw [Ideal.matmul_constant_zero_apply, ← Equiv.sum_comp (ValueIdx.contrEquiv1 dot_S1024x16_S1024x16_S1024x1024_1_1_0_0_n_n 16 rfl rfl).symm]
  refine Finset.sum_congr rfl fun k _ => ?_
  have hk := ValueIdx.contrEquiv1_symm_val dot_S1024x16_S1024x16_S1024x1024_1_1_0_0_n_n 16 rfl rfl k
  have el : dot_S1024x16_S1024x16_S1024x1024_1_1_0_0_n_n.lhsIdx (ix2 (n0 := 1024) (n1 := 1024) p q) ((ValueIdx.contrEquiv1 dot_S1024x16_S1024x16_S1024x1024_1_1_0_0_n_n 16 rfl rfl).symm k) = ix2 (n0 := 1024) (n1 := 16) p k := funext fun a => Fin.ext (by
    match a with
    | ⟨0, _⟩ => exact lhs_small_0 _ _
    | ⟨1, _⟩ => exact (lhs_small_1 _ _).trans hk)
  have er : dot_S1024x16_S1024x16_S1024x1024_1_1_0_0_n_n.rhsIdx (ix2 (n0 := 1024) (n1 := 1024) p q) ((ValueIdx.contrEquiv1 dot_S1024x16_S1024x16_S1024x1024_1_1_0_0_n_n 16 rfl rfl).symm k) = ix2 (n0 := 1024) (n1 := 16) q k := funext fun a => Fin.ext (by
    match a with
    | ⟨0, _⟩ => exact rhs_small_0 _ _
    | ⟨1, _⟩ => exact (rhs_small_1 _ _).trans hk)
  rw [el, er]

/-! ## The group scales laid out over the packed-word positions -/

/-- The scale block `[1024, 16]`, given a unit axis, broadcast over the 64 words of a group and flattened to
    `[1024, 1024]`: position `j` of row `q` holds the scale of group `j / 64`. -/
theorem scale_rep_apply (v2 : Vec Ideal S1024x16 .f32) (q j : Fin 1024) :
    k0_pay5 (F := Ideal) v2 (ix2 (n0 := 1024) (n1 := 1024) q j) = v2 (ix2 (n0 := 1024) (n1 := 16) q (grpJ j)) := by
  unfold k0_pay5
  have hq := q.isLt; have hj := j.isLt
  rw [shapeCast_apply _ shapeCasts_S1024x16x64_S1024x1024 (ix2 (n0 := 1024) (n1 := 1024) q j)
    (ix3 (n0 := 1024) (n1 := 16) (n2 := 64) q (grpJ j) (colJ j))
    (by rw [Shape.rowMajor_val_three, Shape.rowMajor_val_two]
        show (q.val * 16 + j.val / 64) * 64 + j.val % 64 = q.val * 1024 + j.val
        omega)]
  rw [broadcastTo_apply _ broadcasts_S1024x16x1_S1024x16x64 (ix3 (n0 := 1024) (n1 := 16) (n2 := 64) q (grpJ j) (colJ j))
    (ix3 (n0 := 1024) (n1 := 16) (n2 := 1) q (grpJ j) 0)
    (fun a => match a with
      | ⟨0, _⟩ => by show q.val = if (1024 : Nat) = 1 then 0 else q.val; rw [if_neg (by decide)]
      | ⟨1, _⟩ => by show (grpJ j).val = if (16 : Nat) = 1 then 0 else (grpJ j).val; rw [if_neg (by decide)]
      | ⟨2, _⟩ => by show 0 = if (1 : Nat) = 1 then 0 else (colJ j).val; rw [if_pos rfl])]
  rw [shapeCast_self]
  rw [shapeCast_apply _ shapeCasts_S1024x16_S1024x16x1 (ix3 (n0 := 1024) (n1 := 16) (n2 := 1) q (grpJ j) 0)
    (ix2 (n0 := 1024) (n1 := 16) q (grpJ j))
    (by rw [Shape.rowMajor_val_three, Shape.rowMajor_val_two]
        show q.val * 16 + (grpJ j).val = (q.val * 16 + (grpJ j).val) * 1 + 0
        omega)]
  rw [ValueIdx.truncf_apply, shapeCast_self]

/-! ## The bias row over the block's rows -/

theorem bias_row_apply (v8 : Vec Ideal S1024 .f32) (p q : Fin 1024) :
    broadcastTo S1024x1024 (shapeCast S1x1024 v8 shapeCasts_S1024_S1x1024) broadcasts_S1x1024_S1024x1024
        (ix2 (n0 := 1024) (n1 := 1024) p q) = v8 (ix1 (n := 1024) q) := by
  rw [broadcastTo_1b_ab_apply, shapeCast_a_1a_apply]

end Cert.GroupQuant

end
-- ==== Proof.Block.lean ====
/-
  What the body leaves in the output block, entry by entry, from what the six input blocks hold.
-/
import proofs.«424870_j11733850653104_3_alg».proof.Proof.BlockOps

noncomputable section

namespace Cert.GroupQuant

open Idealize.ShloMosaic Idealize.ShloMosaic.ValueIdx
open Cert.KernelIdeal Cert.KernelIdeal.Gen

theorem zero2 : (![0, 0] : Fin 2 → ℕ) = fun _ => 0 := by
  funext a; match a with | ⟨0, _⟩ => rfl | ⟨1, _⟩ => rfl
theorem zero1 : (![0] : Fin 1 → ℕ) = fun _ => 0 := by
  funext a; match a with | ⟨0, _⟩ => rfl

/-- Field `k` of every packed word of the weight block, times its group's scale: entry `(q, j)`. -/
theorem field_scaled_apply (v0 : Vec Ideal S1024x1024 .i32) (v2 : Vec Ideal S1024x16 .f32) (k : Fin 4) (q j : Fin 1024) :
    mulf (F := Ideal) (truncf .bf16 (sitofp .f32 (andi (shrsi (k0_pay2 (F := Ideal) v0) (broadcast S1024x1024 (shamt k))) (broadcast S1024x1024 15#32))) bitsLt_bf16_f32)
        (k0_pay5 (F := Ideal) v2) (ix2 (n0 := 1024) (n1 := 1024) q j)
      = nibble (v0 (ix2 (n0 := 1024) (n1 := 1024) q j)) k * v2 (ix2 (n0 := 1024) (n1 := 16) q (grpJ j)) := by
  rw [ValueIdx.mulf_apply, scale_rep_apply]
  refine congrArg (· * _) ?_
  unfold k0_pay2
  rw [shapeCast_self]
  rfl

/-- One chunk's partial product: the row block's chunk contracted, over the 1024 packed-word positions, against
    field `k` of the weight block scaled group by group. -/
theorem chunk_apply (xk : FVec Ideal S1024x1024 .bf16) (v0 : Vec Ideal S1024x1024 .i32) (v2 : Vec Ideal S1024x16 .f32)
    (k : Fin 4) (p q : Fin 1024) :
    matmul (F := Ideal) dot_S1024x1024_S1024x1024_S1024x1024_1_1_0_0_n_n none
        (shapeCast S1024x1024 xk shapeCasts_S1024x1024_S1024x1024)
        (mulf (truncf .bf16 (sitofp .f32 (andi (shrsi (k0_pay2 (F := Ideal) v0) (broadcast S1024x1024 (shamt k))) (broadcast S1024x1024 15#32))) bitsLt_bf16_f32)
          (k0_pay5 (F := Ideal) v2))
        (constant S1024x1024 .f32 0x00000000#32) (ix2 (n0 := 1024) (n1 := 1024) p q)
      = ∑ j : Fin 1024, xk (ix2 (n0 := 1024) (n1 := 1024) p j)
          * (nibble (v0 (ix2 (n0 := 1024) (n1 := 1024) q j)) k * v2 (ix2 (n0 := 1024) (n1 := 16) q (grpJ j))) := by
  rw [shapeCast_self]
  refine (matmul_big_apply _ _ p q).trans ?_
  refine Finset.sum_congr rfl fun j _ => ?_
  rw [field_scaled_apply]

/-- The group-offset term: the per-group row sums contracted against the group offsets. -/
theorem offset_apply (v9 v5 : Vec Ideal S1024x16 .f32) (p q : Fin 1024) :
    matmul (F := Ideal) dot_S1024x16_S1024x16_S1024x1024_1_1_0_0_n_n none (k0_pay4 (F := Ideal) v9) (k0_pay3 (F := Ideal) v5)
        (constant S1024x1024 .f32 0x00000000#32) (ix2 (n0 := 1024) (n1 := 1024) p q)
      = ∑ g : Fin 16, v9 (ix2 (n0 := 1024) (n1 := 16) p g) * v5 (ix2 (n0 := 1024) (n1 := 16) q g) := by
  refine (matmul_small_apply _ _ p q).trans ?_
  refine Finset.sum_congr rfl fun g _ => ?_
  unfold k0_pay4 k0_pay3
  rw [ValueIdx.truncf_apply, ValueIdx.truncf_apply, shapeCast_self, shapeCast_self]

/-- A chunk of the row block, read through its slice of the block's 4096 columns. -/
theorem ld_chunk (x0 : Vec Ideal S1024x4096 .bf16) (k : Fin 4) (inb : ∀ a, (![0, k.val * 1024] : Fin 2 → ℕ) a + S1024x1024.size a ≤ S1024x4096.size a)
    (p j : Fin 1024) :
    View.ld x0 (Rect.unit (s := S1024x4096) ![0, k.val * 1024] S1024x1024.size inb) (ix2 (n0 := 1024) (n1 := 1024) p j)
      = x0 (ix2 (n0 := 1024) (n1 := 4096) p (chunkCol k j)) := by
  show x0 _ = x0 _
  refine congrArg x0 (funext fun a => Fin.ext ?_)
  match a with
  | ⟨0, _⟩ => show 0 + 1 * p.val = p.val; omega
  | ⟨1, _⟩ => show k.val * 1024 + 1 * j.val = k.val * 1024 + j.val; omega

/-- One chunk's partial product over the row block's own columns. -/
abbrev chunkTerm (x0 : Vec Ideal S1024x4096 .bf16) (x1 : Vec Ideal S1024x1024 .i32) (x2 : Vec Ideal S1024x16 .f32)
    (k : Fin 4) (p q : Fin 1024) : EReal :=
  ∑ j : Fin 1024, x0 (ix2 (n0 := 1024) (n1 := 4096) p (chunkCol k j))
    * (nibble (x1 (ix2 (n0 := 1024) (n1 := 1024) q j)) k * x2 (ix2 (n0 := 1024) (n1 := 16) q (grpJ j)))

/-- THE BLOCK: entry `(p, q)` of what the body stores is the four chunk products added in order, plus the group-offset
    term, plus the bias entry of column `q`. -/
theorem out0_6_apply (x0 : Vec Ideal S1024x4096 .bf16) (x1 : Vec Ideal S1024x1024 .i32) (x2 x3 x4 : Vec Ideal S1024x16 .f32)
    (x5 : Vec Ideal S1024 .f32) (p q : Fin 1024) :
    out0_6 (F := Ideal) x0 x1 x2 x3 x4 x5 (ix2 (n0 := 1024) (n1 := 1024) p q)
      = ((((chunkTerm x0 x1 x2 0 p q + chunkTerm x0 x1 x2 1 p q) + chunkTerm x0 x1 x2 2 p q) + chunkTerm x0 x1 x2 3 p q)
          + ∑ g : Fin 16, x4 (ix2 (n0 := 1024) (n1 := 16) p g) * x3 (ix2 (n0 := 1024) (n1 := 16) q g))
        + x5 (ix1 (n := 1024) q) := by
  unfold out0_6
  rw [View.canon_unit_zero zero2]
  simp only [View.ld_unit_zero (S := S1024x1024) zero2, View.ld_unit_zero (S := S1024x16) zero2,
    View.ld_unit_zero (S := S1024) zero1]
  unfold k0_pay1 k0_pay6 k0_pay7
  dsimp only
  simp only [ValueIdx.addf_apply]
  refine (?_ : _ = (((((0 + chunkTerm x0 x1 x2 0 p q) + chunkTerm x0 x1 x2 1 p q) + chunkTerm x0 x1 x2 2 p q) + chunkTerm x0 x1 x2 3 p q)
          + ∑ g : Fin 16, x4 (ix2 (n0 := 1024) (n1 := 16) p g) * x3 (ix2 (n0 := 1024) (n1 := 16) q g))
        + x5 (ix1 (n := 1024) q)).trans (by rw [zero_add])
  refine congrArg₂ (· + ·) (congrArg₂ (· + ·) (congrArg₂ (· + ·) (congrArg₂ (· + ·) (congrArg₂ (· + ·) (congrArg₂ (· + ·) ?_ ?_) ?_) ?_) ?_) ?_) ?_
  · exact Ideal.ofBits_zero_f32
  · refine (chunk_apply (View.ld x0 r0_3) x1 x2 0 p q).trans (Finset.sum_congr rfl fun j _ => ?_)
    exact congrArg (· * _) (ld_chunk x0 0 _ p j)
  · refine (chunk_apply (View.ld x0 r0_4) x1 x2 1 p q).trans (Finset.sum_congr rfl fun j _ => ?_)
    exact congrArg (· * _) (ld_chunk x0 1 _ p j)
  · refine (chunk_apply (View.ld x0 r0_5) x1 x2 2 p q).trans (Finset.sum_congr rfl fun j _ => ?_)
    exact congrArg (· * _) (ld_chunk x0 2 _ p j)
  · refine (chunk_apply (View.ld x0 r0_6) x1 x2 3 p q).trans (Finset.sum_congr rfl fun j _ => ?_)
    exact congrArg (· * _) (ld_chunk x0 3 _ p j)
  · exact offset_apply x4 x3 p q
  · exact bias_row_apply x5 p q

end Cert.GroupQuant

end
-- ==== Proof.ArrayValue.lean ====
/-
  From blocks to the array: what the region leaves in its result array, and what the reshape after it hands back.

  Grid point `t` of the 4 × 16 grid works on row block `t / 16` and column block `t % 16`: it reads rows
  `(t / 16) · 1024 + p` of the row-indexed operands and rows `(t % 16) · 1024 + q` of the column-indexed ones, and
  writes entry `((t / 16) · 1024 + p, (t % 16) · 1024 + q)` of the result. Each entry of the result is therefore one
  function of the operand arrays, the 64 blocks tile the result, and the array after the run is that function.
-/
import proofs.«424870_j11733850653104_3_alg».proof.Proof.Block

set_option maxRecDepth 16384

noncomputable section

namespace Cert.GroupQuant

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The operand arrays as the region finds them, at their literal types. -/
abbrev arrXp (c : Dev nD) : S4096x4096.Idx → EReal := V (F := Ideal) m c main_v9
abbrev arrWp2 (c : Dev nD) : S16384x1024.Idx → BitVec 32 := V (F := Ideal) m c main_v2
abbrev arrWs2 (c : Dev nD) : S16384x16.Idx → EReal := V (F := Ideal) m c main_v0
abbrev arrWb2 (c : Dev nD) : S16384x16.Idx → EReal := V (F := Ideal) m c main_v1
abbrev arrXs (c : Dev nD) : S4096x16.Idx → EReal := V (F := Ideal) m c main_v5
abbrev arrBias (c : Dev nD) : S16384.Idx → EReal := V (F := Ideal) m c main_arg4

/-- Row `p` of row block `bi`, and row `q` of column block `bj`. -/
def rowAt (bi : Fin 4) (p : Fin 1024) : Fin 4096 := ⟨bi.val * 1024 + p.val, by omega⟩
def colAt (bj : Fin 16) (q : Fin 1024) : Fin 16384 := ⟨bj.val * 1024 + q.val, by omega⟩

/-- One chunk's partial product, over whole arrays: row `M` of the permuted input against row `N` of the packed weights. -/
def chunkSum (xp : S4096x4096.Idx → EReal) (wp2 : S16384x1024.Idx → BitVec 32) (ws2 : S16384x16.Idx → EReal)
    (k : Fin 4) (M : Fin 4096) (N : Fin 16384) : EReal :=
  ∑ j : Fin 1024, xp (ix2 (n0 := 4096) (n1 := 4096) M (chunkCol k j))
    * (nibble (wp2 (ix2 (n0 := 16384) (n1 := 1024) N j)) k * ws2 (ix2 (n0 := 16384) (n1 := 16) N (grpJ j)))

/-- The result array `[4096, 16384]` as one function of the operand arrays. -/
def Karr (xp : S4096x4096.Idx → EReal) (wp2 : S16384x1024.Idx → BitVec 32) (ws2 wb2 : S16384x16.Idx → EReal)
    (xs : S4096x16.Idx → EReal) (bias : S16384.Idx → EReal) : S4096x16384.Idx → EReal := fun i =>
  ((((chunkSum xp wp2 ws2 0 (i 0) (i 1) + chunkSum xp wp2 ws2 1 (i 0) (i 1)) + chunkSum xp wp2 ws2 2 (i 0) (i 1))
      + chunkSum xp wp2 ws2 3 (i 0) (i 1))
    + ∑ g : Fin 16, xs (ix2 (n0 := 4096) (n1 := 16) (i 0) g) * wb2 (ix2 (n0 := 16384) (n1 := 16) (i 1) g))
  + bias (ix1 (n := 16384) (i 1))

/-- A block of the result is the body's block, when each input block is its operand's rows at the block's offsets. -/
theorem block_eq (x0 : Vec Ideal S1024x4096 .bf16) (x1 : Vec Ideal S1024x1024 .i32) (x2 x3 x4 : Vec Ideal S1024x16 .f32)
    (x5 : Vec Ideal S1024 .f32)
    (xp : S4096x4096.Idx → EReal) (wp2 : S16384x1024.Idx → BitVec 32) (ws2 wb2 : S16384x16.Idx → EReal)
    (xs : S4096x16.Idx → EReal) (bias : S16384.Idx → EReal) (bi : Fin 4) (bj : Fin 16)
    (h0 : ∀ (p : Fin 1024) (i : Fin 4096), x0 (ix2 (n0 := 1024) (n1 := 4096) p i) = xp (ix2 (n0 := 4096) (n1 := 4096) (rowAt bi p) i))
    (h1 : ∀ (q j : Fin 1024), x1 (ix2 (n0 := 1024) (n1 := 1024) q j) = wp2 (ix2 (n0 := 16384) (n1 := 1024) (colAt bj q) j))
    (h2 : ∀ (q : Fin 1024) (g : Fin 16), x2 (ix2 (n0 := 1024) (n1 := 16) q g) = ws2 (ix2 (n0 := 16384) (n1 := 16) (colAt bj q) g))
    (h3 : ∀ (q : Fin 1024) (g : Fin 16), x3 (ix2 (n0 := 1024) (n1 := 16) q g) = wb2 (ix2 (n0 := 16384) (n1 := 16) (colAt bj q) g))
    (h4 : ∀ (p : Fin 1024) (g : Fin 16), x4 (ix2 (n0 := 1024) (n1 := 16) p g) = xs (ix2 (n0 := 4096) (n1 := 16) (rowAt bi p) g))
    (h5 : ∀ q : Fin 1024, x5 (ix1 (n := 1024) q) = bias (ix1 (n := 16384) (colAt bj q)))
    (p q : Fin 1024) :
    out0_6 (F := Ideal) x0 x1 x2 x3 x4 x5 (ix2 (n0 := 1024) (n1 := 1024) p q)
      = Karr xp wp2 ws2 wb2 xs bias (ix2 (n0 := 4096) (n1 := 16384) (rowAt bi p) (colAt bj q)) := by
  rw [out0_6_apply]
  unfold Karr chunkSum chunkTerm
  simp only [h0, h1, h2, h3, h4, h5]

/-! ## The grid's index maps, and each block as its operand's rows -/

/-- The printed index maps over the grid, decided once: row-indexed operands follow `t / 16`, column-indexed ones `t % 16`. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val % 16 ∧ win0_3.index t (1 : Fin 2) = 0
    ∧ win0_4.index t (0 : Fin 2) = t.val / 16 ∧ win0_4.index t (1 : Fin 2) = 0
    ∧ win0_5.index t (0 : Fin 1) = t.val % 16
    ∧ win0_6.index t (0 : Fin 2) = t.val / 16 ∧ win0_6.index t (1 : Fin 2) = t.val % 16
    ∧ t.val < 64 :=
  (by decide +kernel : ∀ t : Fin grid0.N, _)

/-- Every block of the result is some point's. -/
theorem idx_onto : ∀ (q0 : Fin 4) (q1 : Fin 16), ∃ t : Fin cfg0.N, win0_6.index t = ![q0.val, q1.val] :=
  (by decide +kernel : ∀ (q0 : Fin 4) (q1 : Fin 16), ∃ t : Fin grid0.N, win0_6.index t = ![q0.val, q1.val])

/-- The row block and the column block of grid point `t`. -/
def blkRow (t : Fin cfg0.N) : Fin 4 := ⟨t.val / 16, by have h := idx_facts t; omega⟩
def blkCol (t : Fin cfg0.N) : Fin 16 := ⟨t.val % 16, by omega⟩

theorem iblk0_apply (c : Dev nD) (t : Fin cfg0.N) (p : Fin 1024) (i : Fin 4096) :
    (iblk (F := Ideal) m c 0 t : S1024x4096.Idx → EReal) (ix2 (n0 := 1024) (n1 := 4096) p i)
      = arrXp m c (ix2 (n0 := 4096) (n1 := 4096) (rowAt (blkRow t) p) i) := by
  show arrXp m c (((cfg0.win 0).blk t).view.emb (ix2 (n0 := 1024) (n1 := 4096) p i)) = _
  refine congrArg (arrXp m c) (funext fun a => Fin.ext ?_)
  have h := idx_facts t
  match a with
  | ⟨0, _⟩ => show win0_0.index t (0 : Fin 2) * 1024 + 1 * p.val = t.val / 16 * 1024 + p.val; omega
  | ⟨1, _⟩ => show win0_0.index t (1 : Fin 2) * 4096 + 1 * i.val = i.val; omega

theorem iblk1_apply (c : Dev nD) (t : Fin cfg0.N) (q j : Fin 1024) :
    (iblk (F := Ideal) m c 1 t : S1024x1024.Idx → BitVec 32) (ix2 (n0 := 1024) (n1 := 1024) q j)
      = arrWp2 m c (ix2 (n0 := 16384) (n1 := 1024) (colAt (blkCol t) q) j) := by
  show arrWp2 m c (((cfg0.win 1).blk t).view.emb (ix2 (n0 := 1024) (n1 := 1024) q j)) = _
  refine congrArg (arrWp2 m c) (funext fun a => Fin.ext ?_)
  have h := idx_facts t
  match a with
  | ⟨0, _⟩ => show win0_1.index t (0 : Fin 2) * 1024 + 1 * q.val = t.val % 16 * 1024 + q.val; omega
  | ⟨1, _⟩ => show win0_1.index t (1 : Fin 2) * 1024 + 1 * j.val = j.val; omega

theorem iblk2_apply (c : Dev nD) (t : Fin cfg0.N) (q : Fin 1024) (g : Fin 16) :
    (iblk (F := Ideal) m c 2 t : S1024x16.Idx → EReal) (ix2 (n0 := 1024) (n1 := 16) q g)
      = arrWs2 m c (ix2 (n0 := 16384) (n1 := 16) (colAt (blkCol t) q) g) := by
  show arrWs2 m c (((cfg0.win 2).blk t).view.emb (ix2 (n0 := 1024) (n1 := 16) q g)) = _
  refine congrArg (arrWs2 m c) (funext fun a => Fin.ext ?_)
  have h := idx_facts t
  match a with
  | ⟨0, _⟩ => show win0_2.index t (0 : Fin 2) * 1024 + 1 * q.val = t.val % 16 * 1024 + q.val; omega
  | ⟨1, _⟩ => show win0_2.index t (1 : Fin 2) * 16 + 1 * g.val = g.val; omega

theorem iblk3_apply (c : Dev nD) (t : Fin cfg0.N) (q : Fin 1024) (g : Fin 16) :
    (iblk (F := Ideal) m c 3 t : S1024x16.Idx → EReal) (ix2 (n0 := 1024) (n1 := 16) q g)
      = arrWb2 m c (ix2 (n0 := 16384) (n1 := 16) (colAt (blkCol t) q) g) := by
  show arrWb2 m c (((cfg0.win 3).blk t).view.emb (ix2 (n0 := 1024) (n1 := 16) q g)) = _
  refine congrArg (arrWb2 m c) (funext fun a => Fin.ext ?_)
  have h := idx_facts t
  match a with
  | ⟨0, _⟩ => show win0_3.index t (0 : Fin 2) * 1024 + 1 * q.val = t.val % 16 * 1024 + q.val; omega
  | ⟨1, _⟩ => show win0_3.index t (1 : Fin 2) * 16 + 1 * g.val = g.val; omega

theorem iblk4_apply (c : Dev nD) (t : Fin cfg0.N) (p : Fin 1024) (g : Fin 16) :
    (iblk (F := Ideal) m c 4 t : S1024x16.Idx → EReal) (ix2 (n0 := 1024) (n1 := 16) p g)
      = arrXs m c (ix2 (n0 := 4096) (n1 := 16) (rowAt (blkRow t) p) g) := by
  show arrXs m c (((cfg0.win 4).blk t).view.emb (ix2 (n0 := 1024) (n1 := 16) p g)) = _
  refine congrArg (arrXs m c) (funext fun a => Fin.ext ?_)
  have h := idx_facts t
  match a with
  | ⟨0, _⟩ => show win0_4.index t (0 : Fin 2) * 1024 + 1 * p.val = t.val / 16 * 1024 + p.val; omega
  | ⟨1, _⟩ => show win0_4.index t (1 : Fin 2) * 16 + 1 * g.val = g.val; omega

theorem iblk5_apply (c : Dev nD) (t : Fin cfg0.N) (q : Fin 1024) :
    (iblk (F := Ideal) m c 5 t : S1024.Idx → EReal) (ix1 (n := 1024) q)
      = arrBias m c (ix1 (n := 16384) (colAt (blkCol t) q)) := by
  show arrBias m c (((cfg0.win 5).blk t).view.emb (ix1 (n := 1024) q)) = _
  refine congrArg (arrBias m c) (funext fun a => Fin.ext ?_)
  have h := idx_facts t
  match a with
  | ⟨0, _⟩ => show win0_5.index t (0 : Fin 1) * 1024 + 1 * q.val = t.val % 16 * 1024 + q.val; omega

/-- Where entry `(p, q)` of point `t`'s output block lands in the result. -/
theorem emb6 (t : Fin cfg0.N) (p q : Fin 1024) :
    ((cfg0.win 6).blk t).view.emb (ix2 (n0 := 1024) (n1 := 1024) p q)
      = ix2 (n0 := 4096) (n1 := 16384) (rowAt (blkRow t) p) (colAt (blkCol t) q) := by
  refine funext fun a => Fin.ext ?_
  have h := idx_facts t
  match a with
  | ⟨0, _⟩ => show win0_6.index t (0 : Fin 2) * 1024 + 1 * p.val = t.val / 16 * 1024 + p.val; omega
  | ⟨1, _⟩ => show win0_6.index t (1 : Fin 2) * 1024 + 1 * q.val = t.val % 16 * 1024 + q.val; omega

/-! ## What each point writes back, the cover, the array -/

/-- The whole-array function at the arrays the region finds. -/
abbrev KV (c : Dev nD) : S4096x16384.Idx → EReal :=
  Karr (arrXp m c) (arrWp2 m c) (arrWs2 m c) (arrWb2 m c) (arrXs m c) (arrBias m c)

/-- WHAT POINT `t` WRITES BACK is block `t` of that function. -/
theorem flushed_eq (c : Dev nD) (t : Fin cfg0.N) :
    (dats (F := Ideal) m 0 c).flushed 6 t = ((cfg0.win 6).blk t).view.read (Elt Ideal) (KV m c) := by
  show (cfg0.win 6).cut (grid0.coords t) ((dats (F := Ideal) m 0 c).after 6 t) = _
  rw [after0_6]
  funext y
  obtain ⟨p, q, rfl⟩ : ∃ (p q : Fin 1024), y = ix2 (n0 := 1024) (n1 := 1024) p q := ⟨y 0, y 1, eq_ix2 y⟩
  show out0_6 (F := Ideal) (iblk m c 0 t) (iblk m c 1 t) (iblk m c 2 t) (iblk m c 3 t) (iblk m c 4 t) (iblk m c 5 t)
      (ix2 (n0 := 1024) (n1 := 1024) p q) = KV m c (((cfg0.win 6).blk t).view.emb (ix2 (n0 := 1024) (n1 := 1024) p q))
  rw [emb6]
  exact block_eq (iblk m c 0 t) (iblk m c 1 t) (iblk m c 2 t) (iblk m c 3 t) (iblk m c 4 t) (iblk m c 5 t)
    (arrXp m c) (arrWp2 m c) (arrWs2 m c) (arrWb2 m c) (arrXs m c) (arrBias m c) (blkRow t) (blkCol t)
    (iblk0_apply m c t) (iblk1_apply m c t) (iblk2_apply m c t) (iblk3_apply m c t) (iblk4_apply m c t) (iblk5_apply m c t) p q

/-- An index of the result is in point `t`'s block iff each coordinate is in the block's range on its axis. -/
theorem mem_blk6 (t : Fin cfg0.N) (i : S4096x16384.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v10).slice (win0_6.rect t)).set ↔ _
  rw [View.set_slice_whole, Rect.mem_set_unit]
  exact Iff.rfl

/-- The 64 blocks tile the result: row `r`, column `s` is in the block of row block `r / 1024`, column block `s / 1024`. -/
theorem cover6 (i : S4096x16384.Idx) :
    ∃ t : Fin cfg0.N, (cfg0.win 6).flush t = true ∧ i ∈ ((cfg0.win 6).blk t).view.set := by
  have hi0 : (i 0).val < 4096 := (i 0).isLt
  have hi1 : (i 1).val < 16384 := (i 1).isLt
  obtain ⟨t, ht⟩ := idx_onto ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- THE ARRAY after the run. -/
theorem final6 (c : Dev nD) : (dats (F := Ideal) m 0 c).arrAt 6 cfg0.N = KV m c :=
  (dats (F := Ideal) m 0 c).arrAt_eq_of_cover 6 (KV m c) (fun t _ => flushed_eq m c t) cover6

end Cert.GroupQuant

end
-- ==== Proof.HostPrefix.lean ====
/-
  What the region finds in its operand arrays: each is a re-laying of an argument array (or, for the per-group row
  sums, a sum over a run of 256 columns), read here at an index.
-/
import proofs.«424870_j11733850653104_3_alg».proof.Proof.Spec
import proofs.«424870_j11733850653104_3_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.GroupQuant

open Idealize.ShloMosaic Idealize.ShloMosaic.TcCoe Idealize.ShloMosaic.ValueIdx Idealize.SL.Sem
open Cert.KernelIdeal Cert.KernelIdeal.Gen

/-! ## The re-layings, over plain arrays of the literal shapes

Each reshape keeps the row-major position of an entry, so it is read by naming the operand index with the same
position; the transpose moves the field axis in front of the group and word axes. -/

section Layouts
variable {α : Type}

/-- Dropping a trailing unit axis: entry `(N, g)` is entry `(N, g, 0)`. -/
theorem dropUnit_apply (x : S16384x16x1.Idx → α) (h : S16384x16x1.ShapeCasts S16384x16) (N : Fin 16384) (g : Fin 16) :
    shapeCast S16384x16 x h (ix2 (n0 := 16384) (n1 := 16) N g)
      = x (ix3 (n0 := 16384) (n1 := 16) (n2 := 1) N g 0) := by
  refine shapeCast_apply x h _ _ ?_
  rw [Shape.rowMajor_val_three, Shape.rowMajor_val_two]
  show (N.val * 16 + g.val) * 1 + 0 = N.val * 16 + g.val
  omega

/-- Merging the group and word axes: position `j` of row `N` is word `j % 64` of group `j / 64`. -/
theorem mergeWords_apply (x : S16384x16x64.Idx → α) (h : S16384x16x64.ShapeCasts S16384x1024) (N : Fin 16384)
    (j : Fin 1024) :
    shapeCast S16384x1024 x h (ix2 (n0 := 16384) (n1 := 1024) N j)
      = x (ix3 (n0 := 16384) (n1 := 16) (n2 := 64) N (grpJ j) (colJ j)) := by
  refine shapeCast_apply x h _ _ ?_
  rw [Shape.rowMajor_val_three, Shape.rowMajor_val_two]
  show (N.val * 16 + j.val / 64) * 64 + j.val % 64 = N.val * 1024 + j.val
  omega

/-- Merging the two row axes of the input: row `M` is row `(M / 2048, M % 2048)`. -/
theorem flatRows_apply (x : S2x2048x4096.Idx → α) (h : S2x2048x4096.ShapeCasts S4096x4096) (M i : Fin 4096) :
    shapeCast S4096x4096 x h (ix2 (n0 := 4096) (n1 := 4096) M i)
      = x (ix3 (n0 := 2) (n1 := 2048) (n2 := 4096) (rowB M) (rowS M) i) := by
  refine shapeCast_apply x h _ _ ?_
  rw [Shape.rowMajor_val_three, Shape.rowMajor_val_two]
  show (M.val / 2048 * 2048 + M.val % 2048) * 4096 + i.val = M.val * 4096 + i.val
  omega

/-- Splitting the 4096 columns into 16 runs of 256: entry `(M, g, r)` is column `g · 256 + r` of row `M`. -/
theorem splitRuns_apply (y : S4096x4096.Idx → α) (h : S4096x4096.ShapeCasts S4096x16x256) (M : Fin 4096) (g : Fin 16)
    (r : Fin 256) :
    shapeCast S4096x16x256 y h (ix3 (n0 := 4096) (n1 := 16) (n2 := 256) M g r)
      = y (ix2 (n0 := 4096) (n1 := 4096) M (grpCol g r)) := by
  refine shapeCast_apply y h _ _ ?_
  rw [Shape.rowMajor_val_three, Shape.rowMajor_val_two]
  show M.val * 4096 + (g.val * 256 + r.val) = (M.val * 16 + g.val) * 256 + r.val
  omega

/-- The column of row `M` that is field `k` of word `w` of group `g`. -/
def fieldCol (g : Fin 16) (w : Fin 64) (k : Fin 4) : Fin 4096 := ⟨g.val * 256 + w.val * 4 + k.val, by omega⟩

/-- Splitting the 4096 columns into group, word and field: entry `(M, g, w, k)` is column `g · 256 + w · 4 + k`. -/
theorem splitFields_apply (y : S4096x4096.Idx → α) (h : S4096x4096.ShapeCasts S4096x16x64x4) (M : Fin 4096)
    (g : Fin 16) (w : Fin 64) (k : Fin 4) :
    shapeCast S4096x16x64x4 y h (ix4 (n0 := 4096) (n1 := 16) (n2 := 64) (n3 := 4) M g w k)
      = y (ix2 (n0 := 4096) (n1 := 4096) M (fieldCol g w k)) := by
  refine shapeCast_apply y h _ _ ?_
  rw [Shape.rowMajor_val_four, Shape.rowMajor_val_two]
  show M.val * 4096 + (g.val * 256 + w.val * 4 + k.val) = ((M.val * 16 + g.val) * 64 + w.val) * 4 + k.val
  omega

/-- The transpose brings the field axis in front of the group and word axes. -/
theorem fieldFirst_apply (z : S4096x16x64x4.Idx → α) (h : S4096x16x64x4.Transposes [0, 3, 1, 2] S4096x4x16x64)
    (M : Fin 4096) (k : Fin 4) (g : Fin 16) (w : Fin 64) :
    transpose S4096x4x16x64 [0, 3, 1, 2] z h (ix4 (n0 := 4096) (n1 := 4) (n2 := 16) (n3 := 64) M k g w)
      = z (ix4 (n0 := 4096) (n1 := 16) (n2 := 64) (n3 := 4) M g w k) := by
  refine transpose_apply _ z h _ _ fun b => ?_
  match b with
  | ⟨0, _⟩ => rfl
  | ⟨1, _⟩ => rfl
  | ⟨2, _⟩ => rfl
  | ⟨3, _⟩ => rfl

/-- Merging field, group and word into one column axis: column `k · 1024 + j` is `(k, j / 64, j % 64)`. -/
theorem mergeChunks_apply (u : S4096x4x16x64.Idx → α) (h : S4096x4x16x64.ShapeCasts S4096x4096) (M : Fin 4096)
    (k : Fin 4) (j : Fin 1024) :
    shapeCast S4096x4096 u h (ix2 (n0 := 4096) (n1 := 4096) M (chunkCol k j))
      = u (ix4 (n0 := 4096) (n1 := 4) (n2 := 16) (n3 := 64) M k (grpJ j) (colJ j)) := by
  refine shapeCast_apply u h _ _ ?_
  rw [Shape.rowMajor_val_four, Shape.rowMajor_val_two]
  show ((M.val * 4 + k.val) * 16 + j.val / 64) * 64 + j.val % 64 = M.val * 4096 + (k.val * 1024 + j.val)
  omega

/-- The column of field `k`, word `j % 64`, group `j / 64` is the permuted column. -/
theorem fieldCol_eq_permIn (k : Fin 4) (j : Fin 1024) : fieldCol (grpJ j) (colJ j) k = permIn k j := rfl

end Layouts

/-- The host sum over the last axis, from the initial value zero: entry `(M, g)` is the sum of the 256 entries
    `(M, g, r)`. -/
theorem rowSum_apply (x : S4096x16x256.Idx → EReal) (h' : S4096x16x256.ReducesTo [2] S4096x16) (M : Fin 4096)
    (g : Fin 16) :
    Ideal.hostReduceAdd h' x 0 (ix2 (n0 := 4096) (n1 := 16) M g)
      = ∑ r : Fin 256, x (ix3 (n0 := 4096) (n1 := 16) (n2 := 256) M g r) := by
  have h : S4096x16x256.Reduces [2] S4096x16 := by decide
  rw [Ideal.hostReduceAdd_single h' h, zero_add]
  show ∑ r : Fin 256, x (h.lift (ix2 (n0 := 4096) (n1 := 16) M g) r) = _
  refine Finset.sum_congr rfl fun r _ => congrArg x (funext fun a => ?_)
  match a with
  | ⟨0, _⟩ => rfl
  | ⟨1, _⟩ => rfl
  | ⟨2, _⟩ => rfl

variable (m : (ℓ : Loc nD τ sig) → Buf (Elt Ideal) ℓ)

/-- The five argument arrays as launched, at their literal types. -/
abbrev argX (c : Dev nD) : ShX.Idx → EReal := m ((c : Thread nD τ).loc main_arg0)
abbrev argWp (c : Dev nD) : ShWp.Idx → BitVec 32 := m ((c : Thread nD τ).loc main_arg1)
abbrev argWs (c : Dev nD) : ShWs.Idx → EReal := m ((c : Thread nD τ).loc main_arg2)
abbrev argWb (c : Dev nD) : ShWs.Idx → EReal := m ((c : Thread nD τ).loc main_arg3)
abbrev argBias (c : Dev nD) : ShB.Idx → EReal := m ((c : Thread nD τ).loc main_arg4)

/-- The permuted, flattened input: row `M`, column `j` of chunk `k`, is the input at row `(M / 2048, M % 2048)` and the
    column whose weight is field `k` of packed word `j`. -/
theorem V_v9_apply (c : Dev nD) (M : Fin 4096) (k : Fin 4) (j : Fin 1024) :
    (V (F := Ideal) m c main_v9 : S4096x4096.Idx → EReal) (ix2 (n0 := 4096) (n1 := 4096) M (chunkCol k j))
      = argX m c
          (ix3 (n0 := 2) (n1 := 2048) (n2 := 4096) (rowB M) (rowS M) (permIn k j)) := by
  show StableHlo.after hostOps0 (fun b => m (c, b)) (Proc.devRef .tc main_v9)
      (ix2 (n0 := 4096) (n1 := 4096) M (chunkCol k j)) = _
  after_results
  -- outermost first: the last reshape, the transpose, the split into fields, the format change, the first reshape
  refine (mergeChunks_apply _ shapeCasts_S4096x4x16x64_S4096x4096 M k j).trans ?_
  refine (fieldFirst_apply _ transposes_S4096x16x64x4_S4096x4x16x64_0_3_1_2 M k (grpJ j) (colJ j)).trans ?_
  refine (splitFields_apply _ shapeCasts_S4096x4096_S4096x16x64x4 M (grpJ j) (colJ j) k).trans ?_
  rw [fieldCol_eq_permIn]
  exact flatRows_apply (argX m c) shapeCasts_S2x2048x4096_S4096x4096 M (permIn k j)

/-- The packed weights with groups and words merged: position `j` of row `N` is word `j % 64` of group `j / 64`. -/
theorem V_v2_apply (c : Dev nD) (N : Fin 16384) (j : Fin 1024) :
    (V (F := Ideal) m c main_v2 : S16384x1024.Idx → BitVec 32) (ix2 (n0 := 16384) (n1 := 1024) N j)
      = argWp m c
          (ix3 (n0 := 16384) (n1 := 16) (n2 := 64) N (grpJ j) (colJ j)) := by
  show StableHlo.after hostOps0 (fun b => m (c, b)) (Proc.devRef .tc main_v2) (ix2 (n0 := 16384) (n1 := 1024) N j) = _
  after_results
  exact mergeWords_apply (argWp m c) shapeCasts_S16384x16x64_S16384x1024 N j

/-- The scales with the unit axis dropped. -/
theorem V_v0_apply (c : Dev nD) (N : Fin 16384) (g : Fin 16) :
    (V (F := Ideal) m c main_v0 : S16384x16.Idx → EReal) (ix2 (n0 := 16384) (n1 := 16) N g)
      = argWs m c (ix3 (n0 := 16384) (n1 := 16) (n2 := 1) N g 0) := by
  show StableHlo.after hostOps0 (fun b => m (c, b)) (Proc.devRef .tc main_v0) (ix2 (n0 := 16384) (n1 := 16) N g) = _
  after_results
  exact dropUnit_apply (argWs m c) shapeCasts_S16384x16x1_S16384x16 N g

/-- The offsets with the unit axis dropped. -/
theorem V_v1_apply (c : Dev nD) (N : Fin 16384) (g : Fin 16) :
    (V (F := Ideal) m c main_v1 : S16384x16.Idx → EReal) (ix2 (n0 := 16384) (n1 := 16) N g)
      = argWb m c (ix3 (n0 := 16384) (n1 := 16) (n2 := 1) N g 0) := by
  show StableHlo.after hostOps0 (fun b => m (c, b)) (Proc.devRef .tc main_v1) (ix2 (n0 := 16384) (n1 := 16) N g) = _
  after_results
  exact dropUnit_apply (argWb m c) shapeCasts_S16384x16x1_S16384x16 N g

/-- The per-group row sums: entry `(M, g)` is the sum of the input's row over the `g`-th run of 256 columns. -/
theorem V_v5_apply (c : Dev nD) (M : Fin 4096) (g : Fin 16) :
    (V (F := Ideal) m c main_v5 : S4096x16.Idx → EReal) (ix2 (n0 := 4096) (n1 := 16) M g)
      = ∑ r : Fin 256, argX m c
          (ix3 (n0 := 2) (n1 := 2048) (n2 := 4096) (rowB M) (rowS M) (grpCol g r)) := by
  show StableHlo.after hostOps0 (fun b => m (c, b)) (Proc.devRef .tc main_v5) (ix2 (n0 := 4096) (n1 := 16) M g) = _
  after_results
  -- the host sum starts from the constant's value, which is zero
  show Ideal.hostReduceAdd reducesTo_S4096x16x256_S4096x16_d2 _ (Ideal.ofBits .f32 0x00000000#32)
      (ix2 (n0 := 4096) (n1 := 16) M g) = _
  rw [Ideal.ofBits_zero_f32]
  refine (rowSum_apply _ reducesTo_S4096x16x256_S4096x16_d2 M g).trans ?_
  refine Finset.sum_congr rfl fun r _ => ?_
  refine (splitRuns_apply _ shapeCasts_S4096x4096_S4096x16x256 M g r).trans ?_
  exact flatRows_apply (argX m c) shapeCasts_S2x2048x4096_S4096x4096 M (grpCol g r)

end Cert.GroupQuant

end
-- ==== Proof.RowLaw.lean ====
/-
  The algebraic law that joins the two arrangements of one row's sum, over real entries.
-/
import proofs.«424870_j11733850653104_3_alg».proof.Proof.Spec
import Mathlib.Algebra.BigOperators.Fin
import Mathlib.Data.Fintype.BigOperators
import Mathlib.Data.EReal.Basic

noncomputable section

namespace Cert.GroupQuant

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Field-major walk: `(k, j) ↦ group(j) · 256 + word(j) · 4 + k` is a bijection of `4 × 1024` onto the 4096 columns;
    its inverse sends column `i` to field `i % 4` and position `(i / 256) · 64 + (i % 256) / 4`. -/
def permEquiv : Fin 4 × Fin 1024 ≃ Fin 4096 where
  toFun p := permIn p.1 p.2
  invFun i := (⟨i.val % 4, by omega⟩, ⟨i.val / 256 * 64 + i.val % 256 / 4, by omega⟩)
  left_inv := by
    rintro ⟨k, j⟩
    apply Prod.ext
    · apply Fin.ext
      show (j.val / 64 * 256 + j.val % 64 * 4 + k.val) % 4 = k.val
      omega
    · apply Fin.ext
      show (j.val / 64 * 256 + j.val % 64 * 4 + k.val) / 256 * 64
          + (j.val / 64 * 256 + j.val % 64 * 4 + k.val) % 256 / 4 = j.val
      omega
  right_inv := by
    intro i
    apply Fin.ext
    show (i.val / 256 * 64 + i.val % 256 / 4) / 64 * 256 + (i.val / 256 * 64 + i.val % 256 / 4) % 64 * 4 + i.val % 4
        = i.val
    omega

/-- Group-major walk: `(g, r) ↦ g · 256 + r` is a bijection of `16 × 256` onto the 4096 columns. -/
def grpEquiv : Fin 16 × Fin 256 ≃ Fin 4096 where
  toFun p := grpCol p.1 p.2
  invFun i := (⟨i.val / 256, by omega⟩, ⟨i.val % 256, by omega⟩)
  left_inv := by
    rintro ⟨g, r⟩
    apply Prod.ext
    · apply Fin.ext
      show (g.val * 256 + r.val) / 256 = g.val
      omega
    · apply Fin.ext
      show (g.val * 256 + r.val) % 256 = r.val
      omega
  right_inv := by
    intro i
    apply Fin.ext
    show i.val / 256 * 256 + i.val % 256 = i.val
    omega

/-- The law over the reals: split `x · (q · s + b)` into `x · (q · s)` and `x · b`, walk the first sum field-major and
    the second group-major, and pull the group's offset out of its run of 256. -/
theorem row_law_real (x q : Fin 4096 → ℝ) (s b : Fin 16 → ℝ) :
    ((((∑ j : Fin 1024, x (permIn 0 j) * (q (permIn 0 j) * s (grpJ j)))
        + ∑ j : Fin 1024, x (permIn 1 j) * (q (permIn 1 j) * s (grpJ j)))
        + ∑ j : Fin 1024, x (permIn 2 j) * (q (permIn 2 j) * s (grpJ j)))
        + ∑ j : Fin 1024, x (permIn 3 j) * (q (permIn 3 j) * s (grpJ j)))
      + ∑ g : Fin 16, (∑ r : Fin 256, x (grpCol g r)) * b g
    = ∑ i : Fin 4096, x i * (q i * s (grpOf i) + b (grpOf i)) := by
  have h1 : ∑ i : Fin 4096, x i * (q i * s (grpOf i))
      = ∑ k : Fin 4, ∑ j : Fin 1024, x (permIn k j) * (q (permIn k j) * s (grpJ j)) := by
    rw [← Fintype.sum_prod_type' (fun k j => x (permIn k j) * (q (permIn k j) * s (grpJ j)))]
    refine (Fintype.sum_equiv permEquiv _ _ ?_).symm
    rintro ⟨k, j⟩
    show x (permIn k j) * (q (permIn k j) * s (grpJ j))
        = x (permIn k j) * (q (permIn k j) * s (grpOf (permIn k j)))
    rw [grpOf_permIn]
  have h2 : ∑ i : Fin 4096, x i * b (grpOf i)
      = ∑ g : Fin 16, (∑ r : Fin 256, x (grpCol g r)) * b g := by
    have : ∑ g : Fin 16, (∑ r : Fin 256, x (grpCol g r)) * b g
        = ∑ g : Fin 16, ∑ r : Fin 256, x (grpCol g r) * b g := by
      refine Finset.sum_congr rfl fun g _ => ?_
      rw [Finset.sum_mul]
    rw [this, ← Fintype.sum_prod_type' (fun g r => x (grpCol g r) * b g)]
    refine (Fintype.sum_equiv grpEquiv _ _ ?_).symm
    rintro ⟨g, r⟩
    show x (grpCol g r) * b g = x (grpCol g r) * b (grpOf (grpCol g r))
    rw [grpOf_grpCol]
  have h3 : ∑ i : Fin 4096, x i * (q i * s (grpOf i) + b (grpOf i))
      = ∑ i : Fin 4096, x i * (q i * s (grpOf i)) + ∑ i : Fin 4096, x i * b (grpOf i) := by
    rw [← Finset.sum_add_distrib]
    refine Finset.sum_congr rfl fun i _ => ?_
    rw [mul_add]
  rw [h3, h1, h2, Fin.sum_univ_four]

/-- For real entries: the four field-major partial products, chunk by chunk, plus the group offsets contracted against
    the per-group sums of the row, is the one sum over the 4096 columns of `x · (field · scale + offset)`. -/
theorem row_law (X Q : Fin 4096 → EReal) (S B : Fin 16 → EReal)
    (hX : ∀ i, ∃ r : ℝ, X i = (r : EReal)) (hQ : ∀ i, ∃ r : ℝ, Q i = (r : EReal))
    (hS : ∀ g, ∃ r : ℝ, S g = (r : EReal)) (hB : ∀ g, ∃ r : ℝ, B g = (r : EReal)) :
    ((((∑ j : Fin 1024, X (permIn 0 j) * (Q (permIn 0 j) * S (grpJ j)))
        + ∑ j : Fin 1024, X (permIn 1 j) * (Q (permIn 1 j) * S (grpJ j)))
        + ∑ j : Fin 1024, X (permIn 2 j) * (Q (permIn 2 j) * S (grpJ j)))
        + ∑ j : Fin 1024, X (permIn 3 j) * (Q (permIn 3 j) * S (grpJ j)))
      + ∑ g : Fin 16, (∑ r : Fin 256, X (grpCol g r)) * B g
    = ∑ i : Fin 4096, X i * (Q i * S (grpOf i) + B (grpOf i)) := by
  choose x hx using hX
  choose q hq using hQ
  choose s hs using hS
  choose b hb using hB
  obtain rfl : X = fun i => (x i : EReal) := funext hx
  obtain rfl : Q = fun i => (q i : EReal) := funext hq
  obtain rfl : S = fun g => (s g : EReal) := funext hs
  obtain rfl : B = fun g => (b g : EReal) := funext hb
  simp only [← EReal.coe_mul, ← EReal.coe_add, ← coe_sum]
  exact congrArg _ (row_law_real x q s b)

end Cert.GroupQuant

end
-- ==== Proof.FiniteInputs.lean ====
/-
  From the precondition to "every float entry is a real number".

  The precondition is the conjunction of four statements "every entry x of the array has |x| < +∞",
  each a reduction by `and` of the one-bit words of the comparisons. Over the extended reals
  |x| is max x (-x), and max x (-x) < ⊤ excludes both x = ⊤ and x = ⊥, so x is a real number.
-/
import proofs.«424870_j11733850653104_3_alg».proof.Pre_finite_inputs
import proofs.«424870_j11733850653104_3_alg».proof.Proof.Gen.Pre_finite_inputs
import Idealize.ShloMosaic.PureOps.Ideal
import Idealize.ShloMosaic.Lib.ReduceAll
import Idealize.ShloMosaic.Lib.ValueIdx

noncomputable section

namespace Cert.GroupQuant

open Idealize.ShloMosaic Cert.Pre_finite_inputs

/-- An extended real whose absolute value `max x (-x)` lies strictly below `⊤` is a real number:
    at `x = ⊤` the maximum is `⊤`, and at `x = ⊥` it is `-⊥ = ⊤`. -/
private theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` (sign 0, exponent all ones, significand 0) denotes `+∞`. -/
private theorem inf_const : FloatOps.ofBits (F := Ideal) .f32 0x7F800000#32 = (⊤ : EReal) := by
  simp [Ideal.ofBits, Ideal.ieee]

/-- One entry: if the comparison word of `|x| < +∞` is 1 then `x` is a real number. -/
private theorem real_of_cmp (x : Ideal .f32)
    (h : FloatOps.cmpf .olt (FloatOps.hostAbsf x) (FloatOps.ofBits (F := Ideal) .f32 0x7F800000#32) = 1#1) :
    ∃ r : ℝ, (x : EReal) = (r : EReal) := by
  rw [inf_const] at h
  apply real_of_abs_lt_top
  -- the comparison word is the truth value of the strict inequality `max x (-x) < ⊤`
  change BitVec.ofBool (decide (max x (-x) < (⊤ : EReal))) = 1#1 at h
  by_cases hlt : max x (-x) < (⊤ : EReal)
  · exact hlt
  · simp [hlt] at h

/-- When the precondition's word is 1, every entry of the four float arrays is a real number. -/
theorem finite_of_pre (a0 : FVec Ideal S2x2048x4096 .f32) (a1 : IVec S16384x16x64 32)
    (a2 a3 : FVec Ideal S16384x16x1 .f32) (a4 : FVec Ideal S16384 .f32)
    (h : Cert.Pre_finite_inputs.fn (F := Ideal) a0 a1 a2 a3 a4 = fun _ => 1#1) :
    (∀ i, ∃ r : ℝ, (a0 i : EReal) = (r : EReal)) ∧ (∀ i, ∃ r : ℝ, (a2 i : EReal) = (r : EReal))
      ∧ (∀ i, ∃ r : ℝ, (a3 i : EReal) = (r : EReal)) ∧ (∀ i, ∃ r : ℝ, (a4 i : EReal) = (r : EReal)) := by
  -- the result has rank 0, hence exactly one index
  haveI : Subsingleton S_.Idx := ⟨fun a b => funext fun d => d.elim0⟩
  -- the word at that index is ((w0 ∧ w2) ∧ w3) ∧ w4, one word per float array
  have h0 := congrFun h ValueIdx.ix0
  dsimp only [Cert.Pre_finite_inputs.fn, Cert.Pre_finite_inputs.fn_part1] at h0
  -- a conjunction of one-bit words is 1 exactly when both are
  obtain ⟨h123, h4⟩ := IntOp.andi_eq_one.1 h0
  obtain ⟨h12, h3⟩ := IntOp.andi_eq_one.1 h123
  obtain ⟨h1, h2⟩ := IntOp.andi_eq_one.1 h12
  -- a reduction by `and` over all axes that is 1 met a 1 at every index; read that entry's comparison
  exact ⟨fun i => real_of_cmp _ (Host.reduce_andi_all _ _ _ _ _ h1 i),
    fun i => real_of_cmp _ (Host.reduce_andi_all _ _ _ _ _ h2 i),
    fun i => real_of_cmp _ (Host.reduce_andi_all _ _ _ _ _ h3 i),
    fun i => real_of_cmp _ (Host.reduce_andi_all _ _ _ _ _ h4 i)⟩

end Cert.GroupQuant

end
-- ==== Proof.KernelValue.lean ====
/-
  The kernel's result: what the reshape after the region hands back is the specification of the argument arrays.
-/
import proofs.«424870_j11733850653104_3_alg».proof.Defs
import proofs.«424870_j11733850653104_3_alg».proof.Proof.ArrayValue
import proofs.«424870_j11733850653104_3_alg».proof.Proof.HostPrefix
import proofs.«424870_j11733850653104_3_alg».proof.Proof.RowLaw
import proofs.«424870_j11733850653104_3_alg».proof.Proof.FiniteInputs
import Idealize.ShloMosaic.Lib.StableHlo.Run

set_option maxRecDepth 16384

noncomputable section

namespace Cert.GroupQuant

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- After the region the one remaining operation reshapes the result array `[4096, 16384]` to `[2, 2048, 16384]`. -/
theorem tail_v11 (c : Dev nD) :
    (Pipeline.afterTail₀ cfgs (dats (F := Ideal) m) 0 (V0 m) [hostOps1] c main_v11 : S2x2048x16384.Idx → EReal)
      = shapeCast S2x2048x16384 (KV m c) shapeCasts_S4096x16384_S2x2048x16384 := by
  unfold Pipeline.afterTail₀
  show StableHlo.after hostOps1 _ (Proc.devRef .tc main_v11) = _
  after_results
  have e := (Pipeline.withArrays_arr spec0 launch0.win.arr_inj c (V0 m c) (fun w => (dats (F := Ideal) m 0 c).arrAt w (cfgs 0).N) 6).trans (final6 m c)
  funext i
  exact congrFun (congrArg (fun X : S4096x16384.Idx → EReal => shapeCast S2x2048x16384 X shapeCasts_S4096x16384_S2x2048x16384) e) i

/-- With real entries, entry `(M, N)` of the result array is the specification at row `(M / 2048, M % 2048)`, column `N`:
    the four chunk products and the group-offset term are the two sides of the row law. -/
theorem KV_eq_G (c : Dev nD)
    (hX : ∀ i, ∃ r : ℝ, argX m c i = (r : EReal)) (hS : ∀ i, ∃ r : ℝ, argWs m c i = (r : EReal))
    (hB : ∀ i, ∃ r : ℝ, argWb m c i = (r : EReal)) (M : Fin 4096) (N : Fin 16384) :
    KV m c (ix2 (n0 := 4096) (n1 := 16384) M N)
      = G (argX m c) (argWp m c) (argWs m c) (argWb m c) (argBias m c)
          (ix3 (n0 := 2) (n1 := 2048) (n2 := 16384) (rowB M) (rowS M) N) := by
  let X : Fin 4096 → EReal := fun i => argX m c (ix3 (n0 := 2) (n1 := 2048) (n2 := 4096) (rowB M) (rowS M) i)
  let Q : Fin 4096 → EReal := fun i => nibble (argWp m c (ix3 (n0 := 16384) (n1 := 16) (n2 := 64) N (grpOf i) (colOf i))) (fldOf i)
  let S : Fin 16 → EReal := fun g => argWs m c (ix3 (n0 := 16384) (n1 := 16) (n2 := 1) N g 0)
  let B : Fin 16 → EReal := fun g => argWb m c (ix3 (n0 := 16384) (n1 := 16) (n2 := 1) N g 0)
  have law := row_law X Q S B (fun i => hX _) (fun i => nibble_real _ _) (fun g => hS _) (fun g => hB _)
  have hc : ∀ k : Fin 4, chunkSum (arrXp m c) (arrWp2 m c) (arrWs2 m c) k M N
      = ∑ j : Fin 1024, X (permIn k j) * (Q (permIn k j) * S (grpJ j)) := fun k =>
    Finset.sum_congr rfl fun j _ => by
      have e2 : nibble (arrWp2 m c (ix2 (n0 := 16384) (n1 := 1024) N j)) k = Q (permIn k j) := by
        show _ = nibble (argWp m c (ix3 (n0 := 16384) (n1 := 16) (n2 := 64) N (grpOf (permIn k j)) (colOf (permIn k j)))) (fldOf (permIn k j))
        rw [grpOf_permIn, colOf_permIn, fldOf_permIn]
        exact congrArg (nibble · k) (V_v2_apply m c N j)
      exact congrArg₂ (· * ·) (V_v9_apply m c M k j) (congrArg₂ (· * ·) e2 (V_v0_apply m c N (grpJ j)))
  have hb : ∑ g : Fin 16, arrXs m c (ix2 (n0 := 4096) (n1 := 16) M g) * arrWb2 m c (ix2 (n0 := 16384) (n1 := 16) N g)
      = ∑ g : Fin 16, (∑ r : Fin 256, X (grpCol g r)) * B g :=
    Finset.sum_congr rfl fun g _ => congrArg₂ (· * ·) (V_v5_apply m c M g) (V_v1_apply m c N g)
  show ((((chunkSum (arrXp m c) (arrWp2 m c) (arrWs2 m c) 0 M N + chunkSum (arrXp m c) (arrWp2 m c) (arrWs2 m c) 1 M N)
          + chunkSum (arrXp m c) (arrWp2 m c) (arrWs2 m c) 2 M N) + chunkSum (arrXp m c) (arrWp2 m c) (arrWs2 m c) 3 M N)
        + ∑ g : Fin 16, arrXs m c (ix2 (n0 := 4096) (n1 := 16) M g) * arrWb2 m c (ix2 (n0 := 16384) (n1 := 16) N g))
      + arrBias m c (ix1 (n := 16384) N)
    = (∑ k : Fin 4096, X k * (Q k * S (grpOf k) + B (grpOf k))) + argBias m c (ix1 (n := 16384) N)
  rw [← law, hc 0, hc 1, hc 2, hc 3, hb]
  exact congrArg (_ + ·) (congrFun (V_main_arg4 m c) (ix1 (n := 16384) N))

/-- The reshaped result is the specification of the argument arrays. -/
theorem result_is_G (c : Dev nD)
    (hX : ∀ i, ∃ r : ℝ, argX m c i = (r : EReal)) (hS : ∀ i, ∃ r : ℝ, argWs m c i = (r : EReal))
    (hB : ∀ i, ∃ r : ℝ, argWb m c i = (r : EReal)) :
    shapeCast S2x2048x16384 (KV m c) shapeCasts_S4096x16384_S2x2048x16384
      = G (argX m c) (argWp m c) (argWs m c) (argWb m c) (argBias m c) := by
  funext i
  obtain ⟨b, s, o, rfl⟩ : ∃ (b : Fin 2) (s : Fin 2048) (o : Fin 16384), i = ix3 (n0 := 2) (n1 := 2048) (n2 := 16384) b s o :=
    ⟨i 0, i 1, i 2, eq_ix3 i⟩
  have hb := b.isLt; have hs := s.isLt; have ho := o.isLt
  rw [shapeCast_apply (KV m c) shapeCasts_S4096x16384_S2x2048x16384 (ix3 (n0 := 2) (n1 := 2048) (n2 := 16384) b s o)
    (ix2 (n0 := 4096) (n1 := 16384) (rowOf b s) o)
    (by rw [Shape.rowMajor_val_two, Shape.rowMajor_val_three]
        show (b.val * 2048 + s.val) * 16384 + o.val = (b.val * 2048 + s.val) * 16384 + o.val
        rfl)]
  rw [KV_eq_G m c hX hS hB]
  have eb : rowB (rowOf b s) = b := Fin.ext (by show (b.val * 2048 + s.val) / 2048 = b.val; omega)
  have es : rowS (rowOf b s) = s := Fin.ext (by show (b.val * 2048 + s.val) % 2048 = s.val; omega)
  rw [eb, es]

/-- THE KERNEL'S RUN: under the precondition every weakly fair execution terminates with the result at the
    specification of the argument arrays, and the argument arrays unchanged. -/
theorem kernel_run (hpre : Cert.Pre_KernelIdeal m) :
    θ_run (Cert.KernelIdeal.defs (F := Ideal)) (onTc (τ := τ) (main (F := Ideal))) ⟨m, fun _ => 0, ρ⟩ (fun r => ∀ c : Dev nD,
      r.2.mem ((c.tc : Thread nD τ).loc main_v11) = G (argX m c) (argWp m c) (argWs m c) (argWb m c) (argBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main (F := Ideal) m ρ)
  obtain ⟨hX, hS, hB, -⟩ := finite_of_pre _ _ _ _ _ (hpre c)
  exact ⟨(((h c).2 main_v11 (Pipeline.mem_restRefs_of main_v11 (by decide) (by decide))).trans (tail_v11 m c)).trans
        (result_is_G m c hX hS hB),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    ((h c).1 5).trans (((dats (F := Ideal) m 0 c).arrAt_in 5 rfl _).trans ((A_eq m c 5).trans (V_main_arg4 m c)))⟩

end Cert.GroupQuant

end
-- ==== Proof.RefIsG.lean ====
/-
  The reference program's result, read index by index, is the specification.
-/
import proofs.«424870_j11733850653104_3_alg».proof.Proof.Spec
import proofs.«424870_j11733850653104_3_alg».proof.Proof.Gen.ReferenceIdeal.Read

noncomputable section

namespace Cert.GroupQuant

open Idealize.ShloMosaic Idealize.ShloMosaic.ValueIdx Cert.ReferenceIdeal

/-- The shift amount `4 f`, computed as the product of the words `f` and `4`, is below 32 for every field `f`, so the
    arithmetic shift by it is the plain one and equals the shift by `shamt f`. -/
theorem shrsi_mul_four (w : BitVec 32) (f : Fin 4) :
    IntOp.shrsi .host w (IntOp.muli (BitVec.ofNat 32 f.val) 4#32) = IntOp.shrsi .vector w (shamt f) := by
  match f with
  | ⟨0, _⟩ => rfl
  | ⟨1, _⟩ => rfl
  | ⟨2, _⟩ => rfl
  | ⟨3, _⟩ => rfl

/-- The left operand of the contraction is read at `(b, s, k)`. -/
theorem lidx17_eq (i : S2x2048x16384.Idx) (k : Fin 4096) :
    Read.lidx_main_v17 i k = ix3 (n0 := 2) (n1 := 2048) (n2 := 4096) (i 0) (i 1) k :=
  funext fun a => by
    match a with
    | ⟨0, _⟩ => rfl
    | ⟨1, _⟩ => rfl
    | ⟨2, _⟩ => rfl

/-- The bias is read at the output row. -/
theorem idx18_19_eq (i : S2x2048x16384.Idx) :
    Read.idx_main_v18 (Read.idx_main_v19 i) = ix1 (n := 16384) (i 2) :=
  funext fun a => by
    match a with
    | ⟨0, _⟩ => rfl

/-- Entry `(o, k)` of the 16384 × 4096 matrix is entry `(o, k / 256, k % 256)` of the 16384 × 16 × 256 array:
    `(o · 4096 + k) / 4096 = o`, `(o · 4096 + k) / 256 % 16 = k / 256`, `(o · 4096 + k) % 256 = k % 256`. -/
theorem idx16_ridx17 (i : S2x2048x16384.Idx) (k : Fin 4096) :
    Read.idx_main_v16 (Read.ridx_main_v17 i k)
      = ix3 (n0 := 16384) (n1 := 16) (n2 := 256) (i 2) (grpOf k) ⟨k.val % 256, Nat.mod_lt _ (by decide)⟩ :=
  funext fun a => Fin.ext (by
    have h2 : (i 2).val < 16384 := (i 2).isLt
    have hk : k.val < 4096 := k.isLt
    match a with
    | ⟨0, _⟩ =>
      show ((i 2).val * 4096 + k.val) / 4096 = (i 2).val
      omega
    | ⟨1, _⟩ =>
      show ((i 2).val * 4096 + k.val) / 256 % 16 = k.val / 256
      omega
    | ⟨2, _⟩ =>
      show ((i 2).val * 4096 + k.val) % 256 = k.val % 256
      omega)

/-- Entry `(o, k / 256, k % 256)` of the 16384 × 16 × 256 array is entry `(o, k / 256, k % 256 / 4, k % 4)` of the
    16384 × 16 × 64 × 4 one: with `n = (o · 16 + k / 256) · 256 + k % 256`, `n / 4096 = o`, `n / 256 % 16 = k / 256`,
    `n / 4 % 64 = k % 256 / 4`, `n % 4 = k % 4`. -/
theorem idx11_run (o : Fin 16384) (k : Fin 4096) :
    Read.idx_main_v11 (ix3 (n0 := 16384) (n1 := 16) (n2 := 256) o (grpOf k) ⟨k.val % 256, Nat.mod_lt _ (by decide)⟩)
      = ix4 (n0 := 16384) (n1 := 16) (n2 := 64) (n3 := 4) o (grpOf k) (colOf k) (fldOf k) :=
  funext fun a => Fin.ext (by
    have ho : o.val < 16384 := o.isLt
    have hk : k.val < 4096 := k.isLt
    match a with
    | ⟨0, _⟩ =>
      show ((o.val * 16 + k.val / 256) * 256 + k.val % 256) / 4096 = o.val
      omega
    | ⟨1, _⟩ =>
      show ((o.val * 16 + k.val / 256) * 256 + k.val % 256) / 256 % 16 = k.val / 256
      omega
    | ⟨2, _⟩ =>
      show ((o.val * 16 + k.val / 256) * 256 + k.val % 256) / 4 % 64 = k.val % 256 / 4
      omega
    | ⟨3, _⟩ =>
      show ((o.val * 16 + k.val / 256) * 256 + k.val % 256) % 4 = k.val % 4
      omega)

/-- The scale and the offset of entry `(o, g, r)` are those of group `g` of row `o`. -/
theorem idx12_ix3 (o : Fin 16384) (g : Fin 16) (r : Fin 256) :
    Read.idx_main_v12 (ix3 (n0 := 16384) (n1 := 16) (n2 := 256) o g r) = ix3 (n0 := 16384) (n1 := 16) (n2 := 1) o g 0 :=
  funext fun a => by
    match a with
    | ⟨0, _⟩ => rfl
    | ⟨1, _⟩ => rfl
    | ⟨2, _⟩ => rfl
/-- Likewise for the offset: it is read at `(o, g, 0)`. -/
theorem idx14_ix3 (o : Fin 16384) (g : Fin 16) (r : Fin 256) :
    Read.idx_main_v14 (ix3 (n0 := 16384) (n1 := 16) (n2 := 256) o g r) = ix3 (n0 := 16384) (n1 := 16) (n2 := 1) o g 0 :=
  funext fun a => by
    match a with
    | ⟨0, _⟩ => rfl
    | ⟨1, _⟩ => rfl
    | ⟨2, _⟩ => rfl

/-- The packed word of entry `(o, g, c, f)` is word `(o, g, c)`. -/
theorem idx3_5_ix4 (o : Fin 16384) (g : Fin 16) (c : Fin 64) (f : Fin 4) :
    Read.idx_main_v3 (Read.idx_main_v5 (ix4 (n0 := 16384) (n1 := 16) (n2 := 64) (n3 := 4) o g c f))
      = ix3 (n0 := 16384) (n1 := 16) (n2 := 64) o g c :=
  funext fun a => by
    match a with
    | ⟨0, _⟩ => rfl
    | ⟨1, _⟩ => rfl
    | ⟨2, _⟩ => rfl

/-- The shift amount of entry `(o, g, c, f)` is that of field `f`. -/
theorem idx4_6_ix4 (o : Fin 16384) (g : Fin 16) (c : Fin 64) (f : Fin 4) :
    Read.idx_main_v4 (Read.idx_main_v6 (ix4 (n0 := 16384) (n1 := 16) (n2 := 64) (n3 := 4) o g c f)) = ix1 (n := 4) f :=
  funext fun a => by
    match a with
    | ⟨0, _⟩ => rfl

/-- The reference's last stage is `G` of its five arguments. -/
theorem ref_is_G (x0 : (⟨S2x2048x4096, .f32⟩ : BufTy).Contents (Elt Ideal)) (x1 : (⟨S16384x16x64, .i32⟩ : BufTy).Contents (Elt Ideal))
    (x2 x3 : (⟨S16384x16x1, .f32⟩ : BufTy).Contents (Elt Ideal)) (x4 : (⟨S16384, .f32⟩ : BufTy).Contents (Elt Ideal)) :
    Cert.ReferenceIdeal.Read.val_main_v20 (F := Ideal) x0 x1 x2 x3 x4 = G x0 x1 x2 x3 x4 := by
  funext i
  unfold G deq nibble
  rw [Read.val_main_v20_apply, Read.val_main_v17_apply, Read.val_main_v19_apply, Read.val_main_v18_apply,
    Ideal.addf_def, idx18_19_eq]
  congr 1
  refine Finset.sum_congr rfl fun k _ => ?_
  rw [lidx17_eq, Read.val_main_v16_apply, idx16_ridx17, Read.val_main_v15_apply, Read.val_main_v13_apply,
    Read.val_main_v14_apply, idx14_ix3 (i 2), Read.val_main_v12_apply, idx12_ix3 (i 2), Read.val_main_v11_apply,
    idx11_run (i 2), Read.val_main_v10_apply, Read.val_main_v9_apply, Read.val_main_v8_apply,
    Read.val_main_c_0_apply, Read.val_main_v7_apply, Read.val_main_v6_apply, Read.val_main_v4_apply,
    idx4_6_ix4 (i 2), Read.val_main_v5_apply, Read.val_main_v3_apply, idx3_5_ix4 (i 2), Read.val_main_v2_apply,
    Read.val_main_v1_apply, Read.val_main_c_apply, Read.val_main_v0_apply, Ideal.addf_def, Ideal.mulf_def,
    ← shrsi_mul_four]
  rfl

end Cert.GroupQuant

end
-- ==== Proof.lean ====
/-
  A 4-bit group-quantised linear layer: `y[b, s, o] = Σ_i x[b, s, i] · (q[o, i] · scale[o, i / 256] + offset[o, i / 256]) + bias[o]`,
  where `q[o, i]` is field `i % 4` of packed word `(i % 256) / 4` of group `i / 256` of output row `o`.

  The reference dequantises the whole weight matrix and contracts it with the input over the 4096 columns. The kernel
  never forms the weight matrix: the input's columns are permuted on the host into field-major order (four chunks of
  1024 columns, each ordered by group then word), each grid point multiplies the four chunks of its row block by the
  matching field of its weight block scaled by the group scales and adds the four products, and the group offsets are
  applied separately, contracted over the 16 groups against per-group row sums of the input computed on the host;
  the bias row is added last and the `[4096, 16384]` result is reshaped to `[2, 2048, 16384]`.

  Over the extended reals the two agree where every float input is finite: `x · (q · s + b) = x · (q · s) + x · b` and
  `(Σ_r x_r) · b = Σ_r x_r · b` need real entries (which the precondition gives), the rest is re-indexing a finite sum
  along the bijections `(field, group · 64 + word) ↦ group · 256 + word · 4 + field` and `(group, r) ↦ group · 256 + r`.
  A change of float format is the identity at the ideal instance, and a field is the same integer on both sides.

  The modules: Spec (the layer as one function of the argument arrays, the index maps), RowLaw (the law for one row),
  FiniteInputs (the precondition gives real entries), RefIsG (the reference's run, read index by index, is the
  specification), BlockOps and Block (the body's stored block, entry by entry), HostPrefix (the operand arrays the region
  finds, in terms of the arguments), ArrayValue (the blocks tile the result: the array after the region), KernelValue
  (the reshape after the region, the join with the row law, the kernel's run).
-/
import proofs.«424870_j11733850653104_3_alg».proof.Defs
import proofs.«424870_j11733850653104_3_alg».proof.Proof.Gen.Kernel
import proofs.«424870_j11733850653104_3_alg».proof.Proof.Gen.Kernel.Skeleton
import proofs.«424870_j11733850653104_3_alg».proof.Proof.Gen.Kernel.Launch
import proofs.«424870_j11733850653104_3_alg».proof.Proof.Gen.Kernel.Points
import proofs.«424870_j11733850653104_3_alg».proof.Proof.Gen.Kernel.Frame
import proofs.«424870_j11733850653104_3_alg».proof.Proof.Gen.KernelIdeal
import proofs.«424870_j11733850653104_3_alg».proof.Proof.Gen.KernelIdeal.Skeleton
import proofs.«424870_j11733850653104_3_alg».proof.Proof.Gen.KernelIdeal.Launch
import proofs.«424870_j11733850653104_3_alg».proof.Proof.Gen.KernelIdeal.Points
import proofs.«424870_j11733850653104_3_alg».proof.Proof.Gen.KernelIdeal.Frame
import proofs.«424870_j11733850653104_3_alg».proof.Proof.Gen.ReferenceIdeal
import proofs.«424870_j11733850653104_3_alg».proof.Proof.Gen.Pre_finite_inputs
import proofs.«424870_j11733850653104_3_alg».proof.Proof.Gen.ReferenceIdeal.Run
import proofs.«424870_j11733850653104_3_alg».proof.Proof.Gen.ReferenceIdeal.Read
import proofs.«424870_j11733850653104_3_alg».proof.Proof.KernelValue
import proofs.«424870_j11733850653104_3_alg».proof.Proof.RefIsG
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the specification of the (agreeing) argument arrays: the kernel's by its run read through the
    blocks and the row law, the reference's by its run read index by index. -/
theorem algebraic : Cert.algebraic_KernelIdeal_ReferenceIdeal := by
  intro m ρ m' ρ' hpre hagree
  refine ⟨fun c => Cert.GroupQuant.G (Cert.GroupQuant.argX m c) (Cert.GroupQuant.argWp m c) (Cert.GroupQuant.argWs m c)
      (Cert.GroupQuant.argWb m c) (Cert.GroupQuant.argBias m c), Cert.GroupQuant.kernel_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans (Cert.GroupQuant.ref_is_G _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
